-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S4096x128 : Shape := ⟨2, ![4096, 128]⟩
abbrev S128x4096 : Shape := ⟨2, ![128, 4096]⟩
abbrev S1x4096 : Shape := ⟨2, ![1, 4096]⟩
abbrev S1024x512 : Shape := ⟨2, ![1024, 512]⟩
abbrev S128x512 : Shape := ⟨2, ![128, 512]⟩
abbrev S1024x128 : Shape := ⟨2, ![1024, 128]⟩
abbrev S1x1024 : Shape := ⟨2, ![1, 1024]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .bf16⟩
  | .hbm, ⟨6, _⟩ => ⟨S4096x4096, .bf16⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x128, .bf16⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S128x4096, .bf16⟩
  | .hbm, ⟨15, _⟩ => ⟨S1x4096, .f32⟩
  | .hbm, ⟨16, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x128, .bf16⟩
  | .local _ .vmem, ⟨7, _⟩ => ⟨S1024x128, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  pads_S4096x16_S4096x128_000_01120 : S4096x16.Pads (![0, 0] : Fin 2 → Nat) ![0, 112] ![0, 0] S4096x128
  h_S_ : 0 < S_.numel
  pads_S16x4096_S128x4096_01120_000 : S16x4096.Pads (![0, 0] : Fin 2 → Nat) ![112, 0] ![0, 0] S128x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  dot_S1024x512_S128x512_S1024x128_1_1_0_0_n_n_wf : DotDims.WF S1024x512 S128x512 S1024x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x4096.size a
  hwx0_2 : ∀ i : grid0.Coords, EltTy.bits .bf16 = 32 ∨ (Rect.block (s := S128x4096) S128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x16 : Shape := ⟨2, ![8192, 16]⟩
abbrev S_ : Shape := ⟨0, ![]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S8192x16, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Tiles.lean ====
/-
  What one grid point of the kernel leaves behind, as values.

  The kernel walks a grid (i, j, k) of 8 x 4 x 8 points, k innermost. It keeps two accumulators between points:
  a [1024, 1024] tile (the partial product of a row block of x with a row block of the weight) and a [1024, 128]
  tile (the partial product of the same row block of x with the rank-padded low-rank factor). At k = 0 both are
  reset to zero and then updated; at every k the current [*, 512] column blocks are multiplied and added in; at
  k = 7 the output tile is formed from the two finished accumulators.

  Each lemma below reads what the symbolic run of one control case found in a buffer back as the body's own
  arithmetic term: the accumulator after the point is "accumulator before, plus the product of this point's
  blocks" (with "before" the zero tile at k = 0), and the output tile at k = 7 is
  (accumulator + 3 * (low-rank accumulator x low-rank factor^T)) + bias row, over the accumulators AFTER this
  point's update. They hold for every float instance.
-/
import proofs.«101534_j40355512713642_1_alg».proof.Proof.Gen.KernelIdeal.Frame
import Idealize.ShloMosaic.Lib.Pipeline.Value
import Idealize.ShloMosaic.Lib.Tactic

set_option maxRecDepth 16384

noncomputable section

namespace Cert.KernelIdeal.Tiles

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl

/-- First point of a reduction run (k = 0): the big accumulator ends at "zero tile plus this point's product". -/
theorem acc_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : cond0_0 i) (hc1 : ¬cond0_1 i) (x0 : Vec F S1024x512 .bf16) (x1 : Vec F S1024x512 .bf16) (x2 : Vec F S128x512 .bf16) (x3 : Vec F S1024x128 .bf16) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x512) origin2]

/-- First point of a reduction run: the low-rank accumulator likewise. -/
theorem low_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : cond0_0 i) (hc1 : ¬cond0_1 i) (x0 : Vec F S1024x512 .bf16) (x1 : Vec F S1024x512 .bf16) (x2 : Vec F S128x512 .bf16) (x3 : Vec F S1024x128 .bf16) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x128) origin2, View.readCov_unit_zero (S := S1024x128) _ origin2]
  simp only [View.readAt_eq_ld, harg3.read_unread, harg5.read_unread, View.ld_unit_zero (S := S1024x512) origin2,
    View.ld_unit_zero (S := S128x512) origin2]

/-- A middle point (0 < k < 7): the big accumulator gains this point's product. -/
theorem acc_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : ¬cond0_0 i) (hc1 : ¬cond0_1 i) (x0 : Vec F S1024x512 .bf16) (x1 : Vec F S1024x512 .bf16) (x2 : Vec F S128x512 .bf16) (x3 : Vec F S1024x128 .bf16) (x4 : Vec F S1x1024 .f32) (xs0 : Vec F S1024x1024 .f32) (xs1 : Vec F S1024x128 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero origin2]
  simp only [View.readAt_eq_ld, harg3.read_unread, harg4.read_unread, harg9.read_unread, View.ld_unit_zero (S := S1024x512) origin2,
    View.ld_unit_zero (S := S1024x1024) origin2]

/-- A middle point: the low-rank accumulator likewise. -/
theorem low_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : ¬cond0_0 i) (hc1 : ¬cond0_1 i) (x0 : Vec F S1024x512 .bf16) (x1 : Vec F S1024x512 .bf16) (x2 : Vec F S128x512 .bf16) (x3 : Vec F S1024x128 .bf16) (x4 : Vec F S1x1024 .f32) (xs0 : Vec F S1024x1024 .f32) (xs1 : Vec F S1024x128 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero origin2]
  simp only [View.readAt_eq_ld, harg3.read_unread, harg5.read_unread, harg10.read_unread, View.ld_unit_zero (S := S1024x512) origin2,
    View.ld_unit_zero (S := S128x512) origin2, View.ld_unit_zero (S := S1024x128) origin2]

/-- The last point of a run (k = 7): the big accumulator gains this point's product, -/
theorem acc_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : ¬cond0_0 i) (hc1 : cond0_1 i) (x0 : Vec F S1024x512 .bf16) (x1 : Vec F S1024x512 .bf16) (x2 : Vec F S128x512 .bf16) (x3 : Vec F S1024x128 .bf16) (x4 : Vec F S1x1024 .f32) (xs0 : Vec F S1024x1024 .f32) (xs1 : Vec F S1024x128 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero origin2]
  simp only [View.readAt_eq_ld, harg3.read_unread, harg4.read_unread, harg9.read_unread, View.ld_unit_zero (S := S1024x512) origin2,
    View.ld_unit_zero (S := S1024x1024) origin2]

/-- the low-rank accumulator likewise, -/
theorem low_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : ¬cond0_0 i) (hc1 : cond0_1 i) (x0 : Vec F S1024x512 .bf16) (x1 : Vec F S1024x512 .bf16) (x2 : Vec F S128x512 .bf16) (x3 : Vec F S1024x128 .bf16) (x4 : Vec F S1x1024 .f32) (xs0 : Vec F S1024x1024 .f32) (xs1 : Vec F S1024x128 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero origin2]
  simp only [View.readAt_eq_ld, harg3.read_unread, harg5.read_unread, harg10.read_unread, View.ld_unit_zero (S := S1024x512) origin2,
    View.ld_unit_zero (S := S128x512) origin2, View.ld_unit_zero (S := S1024x128) origin2]

/-- and the output tile is formed from the two accumulators as this point leaves them. -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S128x512 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x128 .f32) (harg10 : arg10.IsWhole) (hc0 : ¬cond0_0 i) (hc1 : cond0_1 i) (x0 : Vec F S1024x512 .bf16) (x1 : Vec F S1024x512 .bf16) (x2 : Vec F S128x512 .bf16) (x3 : Vec F S1024x128 .bf16) (x4 : Vec F S1x1024 .f32) (xs0 : Vec F S1024x1024 .f32) (xs1 : Vec F S1024x128 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero origin2]
  simp only [View.readAt_eq_ld, harg3.read_unread, harg4.read_unread, harg5.read_unread, harg6.read_unread, harg7.read_unread,
    harg9.read_unread, harg10.read_unread, View.readCov_unit_zero (S := S1024x128) _ origin2,
    View.readCov_unit_zero (S := S1024x1024) _ origin2, View.ld_unit_zero (S := S1024x512) origin2,
    View.ld_unit_zero (S := S128x512) origin2, View.ld_unit_zero (S := S1024x128) origin2,
    View.ld_unit_zero (S := S1024x1024) origin2, View.ld_unit_zero (S := S1x1024) origin2]

end Cert.KernelIdeal.Tiles

end
-- ==== Proof.TileAt.lean ====
/-
  The body's three stored values, read at one entry, over the extended reals.

  Every matrix product in the body contracts the SECOND axis of both operands (x-block times weight-block
  transposed), so entry (p, q) of a product is the sum over u of left(p, u) * right(q, u). With that:
    the big accumulator's update at (p, q) is   acc(p, q) + sum_u x(p, u) * w(q, u),
    the low-rank accumulator's at (p, r) is     low(p, r) + sum_u x(p, u) * b(r, u),
    the output tile at (p, q) is  (acc(p, q) + 3 * sum_r low(p, r) * a(q, r)) + bias(0, q).
  Changes of float format are the identity here, and the zero splat is the real number 0.
-/
import proofs.«101534_j40355512713642_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tiles

open Cert.KernelIdeal Cert.KernelIdeal.Gen Idealize.ShloMosaic Idealize.ShloMosaic.ValueIdx

/-! ### x-block [1024, 512] against weight-block [1024, 512] -/

theorem lhs_xw_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_xw_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_xw_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_xw_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the product into a zero accumulator: row p of the left operand against row q of the right. -/
theorem rowdot_xw (l : FVec Ideal S1024x512 .bf16) (r : FVec Ideal S1024x512 .bf16) (p : Fin 1024) (q : Fin 1024) :
    matmul (F := Ideal) dot_S1024x512_S1024x512_S1024x1024_1_1_0_0_n_n none l r (constant S1024x1024 .f32 0x00000000#32) (ix2 p q)
      = ∑ u : Fin 512, l (ix2 p u) * r (ix2 q u) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_xw_0 _ _
    | ⟨1, _⟩ => exact (lhs_xw_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_xw_0 _ _
    | ⟨1, _⟩ => exact (rhs_xw_1 _ _).trans hk)
  rw [el, er]

/-! ### x-block [1024, 512] against the padded low-rank factor's block [128, 512] -/

theorem lhs_xb_0 (i : S1024x128.Idx) (q : dot_S1024x512_S128x512_S1024x128_1_1_0_0_n_n.contr.Idx) :
    (dot_S1024x512_S128x512_S1024x128_1_1_0_0_n_n.lhsIdx i q 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
theorem lhs_xb_1 (i : S1024x128.Idx) (q : dot_S1024x512_S128x512_S1024x128_1_1_0_0_n_n.contr.Idx) :
    (dot_S1024x512_S128x512_S1024x128_1_1_0_0_n_n.lhsIdx i q 1).val = (q ⟨0, by decide⟩).val :=
  dot_S1024x512_S128x512_S1024x128_1_1_0_0_n_n.lhsIdx_val_of_single rfl i q
theorem rhs_xb_0 (i : S1024x128.Idx) (q : dot_S1024x512_S128x512_S1024x128_1_1_0_0_n_n.contr.Idx) :
    (dot_S1024x512_S128x512_S1024x128_1_1_0_0_n_n.rhsIdx i q 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
theorem rhs_xb_1 (i : S1024x128.Idx) (q : dot_S1024x512_S128x512_S1024x128_1_1_0_0_n_n.contr.Idx) :
    (dot_S1024x512_S128x512_S1024x128_1_1_0_0_n_n.rhsIdx i q 1).val = (q ⟨0, by decide⟩).val :=
  dot_S1024x512_S128x512_S1024x128_1_1_0_0_n_n.rhsIdx_val_of_single rfl i q

/-- Entry (p, q) of the product into a zero accumulator: row p of the left operand against row q of the right. -/
theorem rowdot_xb (l : FVec Ideal S1024x512 .bf16) (r : FVec Ideal S128x512 .bf16) (p : Fin 1024) (q : Fin 128) :
    matmul (F := Ideal) dot_S1024x512_S128x512_S1024x128_1_1_0_0_n_n none l r (constant S1024x128 .f32 0x00000000#32) (ix2 p q)
      = ∑ u : Fin 512, l (ix2 p u) * r (ix2 q u) := by
  simp only [matmul]
  rw [Ideal.matmul_constant_zero_apply, ← Equiv.sum_comp (ValueIdx.contrEquiv1 dot_S1024x512_S128x512_S1024x128_1_1_0_0_n_n 512 rfl rfl).symm]
  refine Finset.sum_congr rfl fun k _ => ?_
  have hk := ValueIdx.contrEquiv1_symm_val dot_S1024x512_S128x512_S1024x128_1_1_0_0_n_n 512 rfl rfl k
  have el : dot_S1024x512_S128x512_S1024x128_1_1_0_0_n_n.lhsIdx (ix2 p q) ((ValueIdx.contrEquiv1 dot_S1024x512_S128x512_S1024x128_1_1_0_0_n_n 512 rfl rfl).symm k) = ix2 p k := funext fun a => Fin.ext (by
    match a with
    | ⟨0, _⟩ => exact lhs_xb_0 _ _
    | ⟨1, _⟩ => exact (lhs_xb_1 _ _).trans hk)
  have er : dot_S1024x512_S128x512_S1024x128_1_1_0_0_n_n.rhsIdx (ix2 p q) ((ValueIdx.contrEquiv1 dot_S1024x512_S128x512_S1024x128_1_1_0_0_n_n 512 rfl rfl).symm k) = ix2 q k := funext fun a => Fin.ext (by
    match a with
    | ⟨0, _⟩ => exact rhs_xb_0 _ _
    | ⟨1, _⟩ => exact (rhs_xb_1 _ _).trans hk)
  rw [el, er]

/-! ### low-rank accumulator [1024, 128] against the padded factor's block [1024, 128] -/

theorem lhs_la_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_la_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_la_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_la_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry (p, q) of the product into a zero accumulator: row p of the left operand against row q of the right. -/
theorem rowdot_la (l : FVec Ideal S1024x128 .bf16) (r : FVec Ideal S1024x128 .bf16) (p : Fin 1024) (q : Fin 1024) :
    matmul (F := Ideal) dot_S1024x128_S1024x128_S1024x1024_1_1_0_0_n_n none l r (constant S1024x1024 .f32 0x00000000#32) (ix2 p q)
      = ∑ u : Fin 128, l (ix2 p u) * r (ix2 q u) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 p q) ((ValueIdx.contrEquiv1 dot_S1024x128_S1024x128_S1024x1024_1_1_0_0_n_n 128 rfl rfl).symm k) = ix2 p k := funext fun a => Fin.ext (by
    match a with
    | ⟨0, _⟩ => exact lhs_la_0 _ _
    | ⟨1, _⟩ => exact (lhs_la_1 _ _).trans hk)
  have er : dot_S1024x128_S1024x128_S1024x1024_1_1_0_0_n_n.rhsIdx (ix2 p q) ((ValueIdx.contrEquiv1 dot_S1024x128_S1024x128_S1024x1024_1_1_0_0_n_n 128 rfl rfl).symm k) = ix2 q k := funext fun a => Fin.ext (by
    match a with
    | ⟨0, _⟩ => exact rhs_la_0 _ _
    | ⟨1, _⟩ => exact (rhs_la_1 _ _).trans hk)
  rw [el, er]

/-! ### The stored values -/

/-- The reset value of the big accumulator is zero everywhere. -/
theorem zero_acc (i : S1024x1024.Idx) : k0_pay1 (F := Ideal) i = 0 := by
  unfold k0_pay1
  rw [shapeCast_self]
  exact Ideal.ofBits_zero_f32

/-- The reset value of the low-rank accumulator is zero everywhere. -/
theorem zero_low (i : S1024x128.Idx) : k0_pay2 (F := Ideal) i = 0 := by
  unfold k0_pay2
  rw [shapeCast_self]
  exact Ideal.ofBits_zero_f32

/-- The big accumulator's update at one entry. -/
theorem acc_step (x w : Vec Ideal S1024x512 .bf16) (acc : Vec Ideal S1024x1024 .f32) (p q : Fin 1024) :
    k0_pay4 x w acc (ix2 p q) = acc (ix2 p q) + ∑ u : Fin 512, x (ix2 p u) * w (ix2 q u) := by
  unfold k0_pay4 k0_pay3
  simp only [shapeCast_self]
  exact congrArg (acc (ix2 p q) + ·) (rowdot_xw x w p q)

/-- The low-rank accumulator's update at one entry. -/
theorem low_step (x : Vec Ideal S1024x512 .bf16) (b : Vec Ideal S128x512 .bf16) (low : Vec Ideal S1024x128 .f32)
    (p : Fin 1024) (r : Fin 128) :
    k0_pay5 x b low (ix2 p r) = low (ix2 p r) + ∑ u : Fin 512, x (ix2 p u) * b (ix2 r u) := by
  unfold k0_pay5 k0_pay3
  simp only [shapeCast_self]
  exact congrArg (low (ix2 p r) + ·) (rowdot_xb x b p r)

/-- The bias row broadcast down the tile, at one entry. -/
theorem bias_entry (bias : Vec Ideal S1x1024 .f32) (p q : Fin 1024) :
    broadcastTo S1024x1024 bias broadcasts_S1x1024_S1024x1024 (ix2 p q) = bias (ix2 (0 : Fin 1) q) :=
  broadcastTo_apply bias broadcasts_S1x1024_S1024x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The output tile at one entry. -/
theorem out_entry (a : Vec Ideal S1024x128 .bf16) (low : Vec Ideal S1024x128 .f32) (acc : Vec Ideal S1024x1024 .f32)
    (bias : Vec Ideal S1x1024 .f32) (p q : Fin 1024) :
    k0_pay6 a low acc bias (ix2 p q)
      = (acc (ix2 p q) + Ideal.ofBits .f32 0x40400000#32 * ∑ r : Fin 128, low (ix2 p r) * a (ix2 q r))
          + bias (ix2 (0 : Fin 1) q) := by
  unfold k0_pay6
  simp only [shapeCast_self]
  show (acc (ix2 p q) + Ideal.ofBits .f32 0x40400000#32 * matmul (F := Ideal) dot_S1024x128_S1024x128_S1024x1024_1_1_0_0_n_n none (truncf .bf16 low bitsLt_bf16_f32) a (constant S1024x1024 .f32 0x00000000#32) (ix2 p q))
      + broadcastTo S1024x1024 bias broadcasts_S1x1024_S1024x1024 (ix2 p q) = _
  rw [rowdot_la, bias_entry]
  rfl

end Cert.KernelIdeal.Tiles

end
-- ==== Proof.Blocks.lean ====
/-
  The blocks the grid points read, as entries of the operand arrays.

  Point t of the 8 x 4 x 8 grid (the last axis fastest) is row tile t / 32, column tile (t / 8) % 4 and reduction
  step t % 8. At that point the kernel sees
    rows 1024 (t / 32) ..  of x      and columns 512 (t % 8) ..   (a [1024, 512] block),
    rows 1024 ((t / 8) % 4) .. of w  and the same columns         (a [1024, 512] block),
    all 128 rows of the padded b     and the same columns         (a [128, 512] block),
    rows 1024 ((t / 8) % 4) .. of the padded a, all 128 columns   (a [1024, 128] block),
    columns 1024 ((t / 8) % 4) .. of the bias row                 (a [1, 1024] block),
  and writes rows 1024 (t / 32) .., columns 1024 ((t / 8) % 4) .. of the result.
-/
import proofs.«101534_j40355512713642_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The block indices of the six windows at point t, decided over the 256 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

theorem point_lt (t : Fin cfg0.N) : t.val < 256 := lt_of_lt_of_eq t.isLt (show cfg0.N = 256 from N_0)

/-- The five input blocks at point t, at their literal types. -/
abbrev xblk (c : Dev nD) (t : Fin cfg0.N) : Vec Ideal S1024x512 .bf16 := iblk m c 0 t
abbrev wblk (c : Dev nD) (t : Fin cfg0.N) : Vec Ideal S1024x512 .bf16 := iblk m c 1 t
abbrev bblk (c : Dev nD) (t : Fin cfg0.N) : Vec Ideal S128x512 .bf16 := iblk m c 2 t
abbrev ablk (c : Dev nD) (t : Fin cfg0.N) : Vec Ideal S1024x128 .bf16 := iblk m c 3 t
abbrev biasblk (c : Dev nD) (t : Fin cfg0.N) : Vec Ideal S1x1024 .f32 := iblk m c 4 t

theorem xblk_at (c : Dev nD) (t : Fin cfg0.N) (p : Fin 1024) (u : Fin 512) :
    xblk m c t (ix2 p u) = (V m c main_v0 : S8192x4096.Idx → EReal)
      (ix2 ⟨1024 * (t.val / 32) + p.val, by have := point_lt t; have := p.isLt; omega⟩
        ⟨512 * (t.val % 8) + u.val, by have := u.isLt; omega⟩) := by
  obtain ⟨e0, e1, -⟩ := index_facts t
  unfold xblk iblk
  rw [View.read_apply]
  show V m c main_v0 _ = V m c main_v0 _
  congr 1
  funext a
  apply Fin.ext
  match a with
  | ⟨0, _⟩ => show win0_0.index t (0 : Fin 2) * 1024 + 1 * p.val = 1024 * (t.val / 32) + p.val; rw [e0]; omega
  | ⟨1, _⟩ => show win0_0.index t (1 : Fin 2) * 512 + 1 * u.val = 512 * (t.val % 8) + u.val; rw [e1]; omega

theorem wblk_at (c : Dev nD) (t : Fin cfg0.N) (q : Fin 1024) (u : Fin 512) :
    wblk m c t (ix2 q u) = (V m c main_v1 : S4096x4096.Idx → EReal)
      (ix2 ⟨1024 * (t.val / 8 % 4) + q.val, by have := q.isLt; omega⟩
        ⟨512 * (t.val % 8) + u.val, by have := u.isLt; omega⟩) := by
  obtain ⟨-, -, e0, e1, -⟩ := index_facts t
  unfold wblk iblk
  rw [View.read_apply]
  show V m c main_v1 _ = V m c main_v1 _
  congr 1
  funext a
  apply Fin.ext
  match a with
  | ⟨0, _⟩ => show win0_1.index t (0 : Fin 2) * 1024 + 1 * q.val = 1024 * (t.val / 8 % 4) + q.val; rw [e0]; omega
  | ⟨1, _⟩ => show win0_1.index t (1 : Fin 2) * 512 + 1 * u.val = 512 * (t.val % 8) + u.val; rw [e1]; omega

theorem bblk_at (c : Dev nD) (t : Fin cfg0.N) (r : Fin 128) (u : Fin 512) :
    bblk m c t (ix2 r u) = (V m c main_v5 : S128x4096.Idx → EReal)
      (ix2 r ⟨512 * (t.val % 8) + u.val, by have := u.isLt; omega⟩) := by
  obtain ⟨-, -, -, -, e0, e1, -⟩ := index_facts t
  unfold bblk iblk
  rw [View.read_apply]
  show V m c main_v5 _ = V m c main_v5 _
  congr 1
  funext a
  apply Fin.ext
  match a with
  | ⟨0, _⟩ => show win0_2.index t (0 : Fin 2) * 128 + 1 * r.val = r.val; rw [e0]; omega
  | ⟨1, _⟩ => show win0_2.index t (1 : Fin 2) * 512 + 1 * u.val = 512 * (t.val % 8) + u.val; rw [e1]; omega

theorem ablk_at (c : Dev nD) (t : Fin cfg0.N) (q : Fin 1024) (r : Fin 128) :
    ablk m c t (ix2 q r) = (V m c main_v3 : S4096x128.Idx → EReal)
      (ix2 ⟨1024 * (t.val / 8 % 4) + q.val, by have := q.isLt; omega⟩ r) := by
  obtain ⟨-, -, -, -, -, -, e0, e1, -⟩ := index_facts t
  unfold ablk iblk
  rw [View.read_apply]
  show V m c main_v3 _ = V m c main_v3 _
  congr 1
  funext a
  apply Fin.ext
  match a with
  | ⟨0, _⟩ => show win0_3.index t (0 : Fin 2) * 1024 + 1 * q.val = 1024 * (t.val / 8 % 4) + q.val; rw [e0]; omega
  | ⟨1, _⟩ => show win0_3.index t (1 : Fin 2) * 128 + 1 * r.val = r.val; rw [e1]; omega

theorem biasblk_at (c : Dev nD) (t : Fin cfg0.N) (q : Fin 1024) :
    biasblk m c t (ix2 (0 : Fin 1) q) = (V m c main_v6 : S1x4096.Idx → EReal)
      (ix2 (0 : Fin 1) ⟨1024 * (t.val / 8 % 4) + q.val, by have := q.isLt; omega⟩) := by
  obtain ⟨-, -, -, -, -, -, -, -, e0, e1, -⟩ := index_facts t
  unfold biasblk iblk
  rw [View.read_apply]
  show V m c main_v6 _ = V m c main_v6 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = 1024 * (t.val / 8 % 4) + q.val; rw [e1]; omega

end Cert.KernelIdeal.Blocks

end
-- ==== Proof.Fold.lean ====
/-
  The two accumulators after every grid point, as sums.

  Within one run of eight consecutive points (a fixed row tile and column tile, reduction steps 0 .. 7) the big
  accumulator after step k holds, at (p, q), the sum over the steps s ≤ k of  sum_u x_s(p, u) * w_s(q, u),
  where x_s and w_s are the blocks step s reads; the low-rank accumulator holds the same with the padded b's block
  in place of w's. Step 0 starts from the zero tile, every later step adds to what the step before left: the run
  is a fold, and the fold of "add this step's product" is the sum of the products.
-/
import proofs.«101534_j40355512713642_1_alg».proof.Proof.Gen.KernelIdeal.Value
import proofs.«101534_j40355512713642_1_alg».proof.Proof.Tiles
import proofs.«101534_j40355512713642_1_alg».proof.Proof.TileAt
import proofs.«101534_j40355512713642_1_alg».proof.Proof.Blocks

set_option maxRecDepth 16384

noncomputable section

namespace Cert.KernelIdeal.Fold

open Cert.KernelIdeal Cert.KernelIdeal.Gen Cert.KernelIdeal.Value Cert.KernelIdeal.Tiles Cert.KernelIdeal.Blocks
open Idealize.ShloMosaic Idealize.ShloMosaic.TcCoe Idealize.SL.Sem Idealize.ShloMosaic.ValueIdx

variable (m : (ℓ : Loc nD τ sig) → Buf (Elt Ideal) ℓ)

/-- What point n adds to the big accumulator at (p, q); nothing past the grid. -/
def accTerm (c : Dev nD) (n : ℕ) (p q : Fin 1024) : EReal :=
  if h : n < cfg0.N then ∑ u : Fin 512, xblk m c ⟨n, h⟩ (ix2 p u) * wblk m c ⟨n, h⟩ (ix2 q u) else 0

/-- What point n adds to the low-rank accumulator at (p, r); nothing past the grid. -/
def lowTerm (c : Dev nD) (n : ℕ) (p : Fin 1024) (r : Fin 128) : EReal :=
  if h : n < cfg0.N then ∑ u : Fin 512, xblk m c ⟨n, h⟩ (ix2 p u) * bblk m c ⟨n, h⟩ (ix2 r u) else 0

/-- The big accumulator after point t: the products of the run's points up to t. -/
theorem acc_after (c : Dev nD) (t : Fin cfg0.N) (p q : Fin 1024) :
    (outsAt0 m c t.val t.isLt).2.1 (ix2 p q)
      = 0 + ∑ s ∈ Finset.range (t.val % 8 + 1), accTerm m c (8 * (t.val / 8) + s) p q := by
  refine (congrFun (soutsAt0_0_eq m c t) (ix2 p q)).trans ?_
  refine Pipeline.accAt_add_apply (ι := S1024x1024.Idx) (β := EReal) _ _ (fun _ => 0)
    (fun n i => accTerm m c n (i 0) (i 1)) (8 * (t.val / 8)) 7 ?_ ?_ (t.val % 8) (by omega) _ (ix2 p q)
  · intro h i
    have h0 : 8 * (t.val / 8) % 8 = 0 := Nat.mul_mod_right 8 _
    have h1 : ¬8 * (t.val / 8) % 8 = 7 := by omega
    obtain ⟨p, q, rfl⟩ : ∃ p q, i = ix2 p q := ⟨i 0, i 1, eq_ix2 i⟩
    unfold scAt0_0
    rw [dif_pos h0, dif_neg h1, acc_first]
    refine (acc_step _ _ _ p q).trans ?_
    rw [zero_acc]
    show (0 : EReal) + _ = 0 + accTerm m c (8 * (t.val / 8)) p q
    unfold accTerm
    rw [dif_pos h]
  · intro n h acc i hlo hhi
    have h0 : ¬n % 8 = 0 := by omega
    obtain ⟨p, q, rfl⟩ : ∃ p q, i = ix2 p q := ⟨i 0, i 1, eq_ix2 i⟩
    have hstep : acc (ix2 p q) + ∑ u : Fin 512, xblk m c ⟨n, h⟩ (ix2 p u) * wblk m c ⟨n, h⟩ (ix2 q u)
        = acc (ix2 p q) + accTerm m c n p q := by
      unfold accTerm
      rw [dif_pos h]
    unfold scAt0_0
    by_cases h1 : n % 8 = 7
    · rw [dif_neg h0, dif_pos h1, acc_last]
      exact (acc_step _ _ _ p q).trans hstep
    · rw [dif_neg h0, dif_neg h1, acc_mid]
      exact (acc_step _ _ _ p q).trans hstep

/-- The low-rank accumulator after point t: the products of the run's points up to t. -/
theorem low_after (c : Dev nD) (t : Fin cfg0.N) (p : Fin 1024) (r : Fin 128) :
    (outsAt0 m c t.val t.isLt).2.2 (ix2 p r)
      = 0 + ∑ s ∈ Finset.range (t.val % 8 + 1), lowTerm m c (8 * (t.val / 8) + s) p r := by
  refine (congrFun (soutsAt0_1_eq m c t) (ix2 p r)).trans ?_
  refine Pipeline.accAt_add_apply (ι := S1024x128.Idx) (β := EReal) _ _ (fun _ => 0)
    (fun n i => lowTerm m c n (i 0) (i 1)) (8 * (t.val / 8)) 7 ?_ ?_ (t.val % 8) (by omega) _ (ix2 p r)
  · intro h i
    have h0 : 8 * (t.val / 8) % 8 = 0 := Nat.mul_mod_right 8 _
    have h1 : ¬8 * (t.val / 8) % 8 = 7 := by omega
    obtain ⟨p, r, rfl⟩ : ∃ p r, i = ix2 p r := ⟨i 0, i 1, eq_ix2 i⟩
    unfold scAt0_1
    rw [dif_pos h0, dif_neg h1, low_first]
    refine (low_step _ _ _ p r).trans ?_
    rw [zero_low]
    show (0 : EReal) + _ = 0 + lowTerm m c (8 * (t.val / 8)) p r
    unfold lowTerm
    rw [dif_pos h]
  · intro n h acc i hlo hhi
    have h0 : ¬n % 8 = 0 := by omega
    obtain ⟨p, r, rfl⟩ : ∃ p r, i = ix2 p r := ⟨i 0, i 1, eq_ix2 i⟩
    have hstep : acc (ix2 p r) + ∑ u : Fin 512, xblk m c ⟨n, h⟩ (ix2 p u) * bblk m c ⟨n, h⟩ (ix2 r u)
        = acc (ix2 p r) + lowTerm m c n p r := by
      unfold lowTerm
      rw [dif_pos h]
    unfold scAt0_1
    by_cases h1 : n % 8 = 7
    · rw [dif_neg h0, dif_pos h1, low_last]
      exact (low_step _ _ _ p r).trans hstep
    · rw [dif_neg h0, dif_neg h1, low_mid]
      exact (low_step _ _ _ p r).trans hstep

/-- At the last point of a run the big accumulator is the sum over all eight steps. -/
theorem acc_done (c : Dev nD) (t : Fin cfg0.N) (h7 : t.val % 8 = 7) (p q : Fin 1024) :
    (outsAt0 m c t.val t.isLt).2.1 (ix2 p q) = ∑ s : Fin 8, accTerm m c (8 * (t.val / 8) + s.val) p q := by
  rw [acc_after, h7, zero_add, Finset.sum_range]

/-- At the last point of a run the low-rank accumulator is the sum over all eight steps. -/
theorem low_done (c : Dev nD) (t : Fin cfg0.N) (h7 : t.val % 8 = 7) (p : Fin 1024) (r : Fin 128) :
    (outsAt0 m c t.val t.isLt).2.2 (ix2 p r) = ∑ s : Fin 8, lowTerm m c (8 * (t.val / 8) + s.val) p r := by
  rw [low_after, h7, zero_add, Finset.sum_range]

end Cert.KernelIdeal.Fold

end
-- ==== Proof.HostSide.lean ====
/-
  What the kernel's five operand arrays hold when the grid starts, in terms of the program's arguments.

  Before the grid the program prepares its operands: x and the weight are converted to a narrower float format
  (the identity over the extended reals); the two low-rank factors are padded with zeros from rank 16 to rank 128
  (a : [4096, 16] gains 112 zero columns, b : [16, 4096] gains 112 zero rows) and converted likewise; the bias
  vector is laid out as a 1 x 4096 row. So, entry by entry: the first two operands are the arguments themselves;
  the padded factors agree with the arguments on the first 16 columns (rows) and the padded a is zero on the rest;
  the bias row at (0, o) is bias(o).
-/
import proofs.«101534_j40355512713642_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The padding value: the integer 0 converted to a float is the real number 0. -/
theorem pad_value : (sitofp (F := Ideal) .f32 (constantI S_ 32 0#32)) (Shape.Idx.first h_S_) = 0 := by
  show (((0#32 : BitVec 32).toInt : ℝ) : EReal) = 0
  simp

/-- The first operand is x. -/
theorem x_arr (c : Dev nD) : (V m c main_v0 : S8192x4096.Idx → EReal) = m ((c : Thread nD τ).loc main_arg0) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The second operand is the weight. -/
theorem w_arr (c : Dev nD) : (V m c main_v1 : S4096x4096.Idx → EReal) = m ((c : Thread nD τ).loc main_arg1) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The fourth operand is a with 112 columns of the padding value appended. -/
theorem a_arr (c : Dev nD) : (V m c main_v3 : S4096x128.Idx → EReal)
    = pad S4096x128 ![0, 0] ![0, 112] ![0, 0] (m ((c : Thread nD τ).loc main_arg3)) (sitofp (F := Ideal) .f32 (constantI S_ 32 0#32))
        pads_S4096x16_S4096x128_000_01120 h_S_ := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The third operand is b with 112 rows of the padding value appended. -/
theorem b_arr (c : Dev nD) : (V m c main_v5 : S128x4096.Idx → EReal)
    = pad S128x4096 ![0, 0] ![112, 0] ![0, 0] (m ((c : Thread nD τ).loc main_arg4)) (sitofp (F := Ideal) .f32 (constantI S_ 32 0#32))
        pads_S16x4096_S128x4096_01120_000 h_S_ := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The fifth operand is the bias vector as a row. -/
theorem bias_arr (c : Dev nD) : (V m c main_v6 : S1x4096.Idx → EReal)
    = shapeCast S1x4096 (m ((c : Thread nD τ).loc main_arg2)) shapeCasts_S4096_S1x4096 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- Column r < 16 of the padded a is column r of a. -/
theorem a_col (c : Dev nD) (o : Fin 4096) (r : Fin 16) :
    (V m c main_v3 : S4096x128.Idx → EReal) (ix2 o ⟨r.val, by have := r.isLt; omega⟩) = m ((c : Thread nD τ).loc main_arg3) (ix2 o r) := by
  rw [a_arr]
  exact pad_apply_of_inside _ _ _ _ _ pads_S4096x16_S4096x128_000_01120 h_S_ _ (ix2 o r) (fun a => by
    match a with
    | ⟨0, _⟩ => show o.val = 0 + o.val * (0 + 1); omega
    | ⟨1, _⟩ => show r.val = 0 + r.val * (0 + 1); omega)

/-- Column r ≥ 16 of the padded a is zero. -/
theorem a_pad (c : Dev nD) (o : Fin 4096) (r : Fin 128) (hr : 16 ≤ r.val) :
    (V m c main_v3 : S4096x128.Idx → EReal) (ix2 o r) = (0 : EReal) := by
  rw [a_arr, pad_apply_of_not_inside _ _ _ _ _ pads_S4096x16_S4096x128_000_01120 h_S_ _ (1 : Fin 2) (by
    show ¬(0 ≤ r.val ∧ (r.val - 0) % (0 + 1) = 0 ∧ (r.val - 0) / (0 + 1) < 16)
    omega)]
  exact pad_value

/-- Row r < 16 of the padded b is row r of b. -/
theorem b_row (c : Dev nD) (r : Fin 16) (k : Fin 4096) :
    (V m c main_v5 : S128x4096.Idx → EReal) (ix2 ⟨r.val, by have := r.isLt; omega⟩ k) = m ((c : Thread nD τ).loc main_arg4) (ix2 r k) := by
  rw [b_arr]
  exact pad_apply_of_inside _ _ _ _ _ pads_S16x4096_S128x4096_01120_000 h_S_ _ (ix2 r k) (fun a => by
    match a with
    | ⟨0, _⟩ => show r.val = 0 + r.val * (0 + 1); omega
    | ⟨1, _⟩ => show k.val = 0 + k.val * (0 + 1); omega)

/-- The bias row at (0, o) is bias(o). -/
theorem bias_at (c : Dev nD) (o : Fin 4096) :
    (V m c main_v6 : S1x4096.Idx → EReal) (ix2 (0 : Fin 1) o) = m ((c : Thread nD τ).loc main_arg2) (ix1 o) := by
  rw [bias_arr]
  exact shapeCast_apply _ shapeCasts_S4096_S1x4096 _ (ix1 o) (by
    rw [Shape.rowMajor_val_one, Shape.rowMajor_val_two]
    show o.val = 0 * 4096 + o.val
    omega)

end Cert.KernelIdeal.HostSide

end
-- ==== Proof.Spec.lean ====
/-
  The function both programs compute, and the two facts about finite sums that relate their arrangements.

  For x : [8192, 4096], w : [4096, 4096], bias : [4096], a : [4096, 16], b : [16, 4096], the result at (t, o) is

      ( sum_k x(t, k) * w(o, k)  +  3 * sum_{r < 16} ( sum_k x(t, k) * b(r, k) ) * a(o, r) )  +  bias(o)

  over the extended reals, the constant 3 kept as the float word both programs carry.

  The kernel reaches the same number by a different route: it cuts the 4096 columns into 8 runs of 512 and adds the
  runs' partial products one after the other (addition of extended reals is associative and commutative, so the
  grouping does not matter), and it pads the rank from 16 to 128 with zero columns of a, whose terms are products
  with zero and vanish whatever the other factor is. Neither step needs the inputs to be finite.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Lora

open Idealize.ShloMosaic Idealize.ShloMosaic.ValueIdx

/-- The scale 3.0 as the float word both programs carry. -/
abbrev three : EReal := Ideal.ofBits .f32 0x40400000#32

/-- The result at row t, column o. -/
def entry (x : (⟨2, ![8192, 4096]⟩ : Shape).Idx → EReal) (w : (⟨2, ![4096, 4096]⟩ : Shape).Idx → EReal)
    (bias : (⟨1, ![4096]⟩ : Shape).Idx → EReal) (a : (⟨2, ![4096, 16]⟩ : Shape).Idx → EReal)
    (b : (⟨2, ![16, 4096]⟩ : Shape).Idx → EReal) (t : Fin 8192) (o : Fin 4096) : EReal :=
  (∑ k : Fin 4096, x (ix2 t k) * w (ix2 o k)
      + three * ∑ r : Fin 16, (∑ k : Fin 4096, x (ix2 t k) * b (ix2 r k)) * a (ix2 o r))
    + bias (ix1 o)

/-- The whole result array. -/
def result (x : (⟨2, ![8192, 4096]⟩ : Shape).Idx → EReal) (w : (⟨2, ![4096, 4096]⟩ : Shape).Idx → EReal)
    (bias : (⟨1, ![4096]⟩ : Shape).Idx → EReal) (a : (⟨2, ![4096, 16]⟩ : Shape).Idx → EReal)
    (b : (⟨2, ![16, 4096]⟩ : Shape).Idx → EReal) : (⟨2, ![8192, 4096]⟩ : Shape).Idx → EReal :=
  fun i => entry x w bias a b (i 0) (i 1)

theorem result_ix2 (x w bias a b) (t : Fin 8192) (o : Fin 4096) :
    result x w bias a b (ix2 t o) = entry x w bias a b t o := rfl

/-- A sum over n * m consecutive positions is the sum over n runs of m: position m * s + u is entry u of run s. -/
theorem sum_runs {M : Type*} [AddCommMonoid M] (n m : ℕ) (f : Fin (n * m) → M) :
    ∑ k, f k = ∑ s : Fin n, ∑ u : Fin m, f ⟨m * s.val + u.val, by
      have hs := s.isLt; have hu := u.isLt
      calc m * s.val + u.val < m * s.val + m := by omega
        _ = m * (s.val + 1) := by ring
        _ ≤ m * n := Nat.mul_le_mul_left _ hs
        _ = n * m := Nat.mul_comm _ _⟩ := by
  rw [← Equiv.sum_comp finProdFinEquiv f, Fintype.sum_prod_type]
  refine Finset.sum_congr rfl fun s _ => Finset.sum_congr rfl fun u _ => congrArg f (Fin.ext ?_)
  show u.val + m * s.val = m * s.val + u.val
  omega

/-- The 4096 columns as 8 runs of 512. -/
theorem sum_columns {M : Type*} [AddCommMonoid M] (f : Fin 4096 → M) :
    ∑ k, f k = ∑ s : Fin 8, ∑ u : Fin 512, f ⟨512 * s.val + u.val, by have := s.isLt; have := u.isLt; omega⟩ :=
  sum_runs 8 512 f

/-- A sum over n + m positions whose last m terms vanish is the sum of the first n. -/
theorem sum_padded {M : Type*} [AddCommMonoid M] (n m : ℕ) (g : Fin (n + m) → M)
    (h : ∀ j : Fin m, g (Fin.natAdd n j) = 0) : ∑ r, g r = ∑ r : Fin n, g (Fin.castAdd m r) := by
  rw [Fin.sum_univ_add, Finset.sum_eq_zero (fun j _ => h j), add_zero]

/-- The padded rank: 128 positions of which the last 112 vanish. -/
theorem sum_rank {M : Type*} [AddCommMonoid M] (g : Fin 128 → M) (h : ∀ r : Fin 128, 16 ≤ r.val → g r = 0) :
    ∑ r, g r = ∑ r : Fin 16, g ⟨r.val, by have := r.isLt; omega⟩ :=
  sum_padded 16 112 g fun j => h _ (Nat.le_add_right 16 j.val)

end Cert.Lora

end
-- ==== Proof.RunTerms.lean ====
/-
  One output tile, entry by entry, as the specified function of the program's arguments.

  Fix a grid point t that ends a run (t % 8 = 7), with row tile I = t / 32 and column tile J = (t / 8) % 4, and an
  entry (p, q) of the tile; write T = 1024 I + p and O = 1024 J + q. The run's points are 8 (t / 8) + s for
  s = 0 .. 7, all with the same I and J and with reduction step s, so
    the big accumulator's eight products are  sum_u x(T, 512 s + u) * w(O, 512 s + u),  together  sum_k x(T, k) * w(O, k);
    the low-rank accumulator's, at a rank r < 16, are  sum_u x(T, 512 s + u) * b(r, 512 s + u),  together  sum_k x(T, k) * b(r, k);
    the padded a's block is a(O, r) at r < 16 and zero at r ≥ 16, so the rank sum over 128 keeps its first 16 terms;
    the bias block at (0, q) is bias(O).
  The tile's entry is therefore the specification's entry (T, O).
-/
import proofs.«101534_j40355512713642_1_alg».proof.Proof.Fold
import proofs.«101534_j40355512713642_1_alg».proof.Proof.HostSide
import proofs.«101534_j40355512713642_1_alg».proof.Proof.Spec

set_option maxRecDepth 16384

noncomputable section

namespace Cert.KernelIdeal.Fold

open Cert.KernelIdeal Cert.KernelIdeal.Gen Cert.KernelIdeal.Value Cert.KernelIdeal.Tiles Cert.KernelIdeal.Blocks
open Cert.KernelIdeal.HostSide
open Idealize.ShloMosaic Idealize.ShloMosaic.TcCoe Idealize.SL.Sem Idealize.ShloMosaic.ValueIdx

variable (m : (ℓ : Loc nD τ sig) → Buf (Elt Ideal) ℓ)

/-- The five arguments as the launch finds them, at their literal types. -/
abbrev xArg (c : Dev nD) : S8192x4096.Idx → EReal := m ((c : Thread nD τ).loc main_arg0)
abbrev wArg (c : Dev nD) : S4096x4096.Idx → EReal := m ((c : Thread nD τ).loc main_arg1)
abbrev biasArg (c : Dev nD) : S4096.Idx → EReal := m ((c : Thread nD τ).loc main_arg2)
abbrev aArg (c : Dev nD) : S4096x16.Idx → EReal := m ((c : Thread nD τ).loc main_arg3)
abbrev bArg (c : Dev nD) : S16x4096.Idx → EReal := m ((c : Thread nD τ).loc main_arg4)

/-- Row T of the result a tile entry belongs to, and its column O. -/
abbrev rowOf (t : Fin cfg0.N) (p : Fin 1024) : Fin 8192 := ⟨1024 * (t.val / 32) + p.val, by have := point_lt t; have := p.isLt; omega⟩
abbrev colOf (t : Fin cfg0.N) (q : Fin 1024) : Fin 4096 := ⟨1024 * (t.val / 8 % 4) + q.val, by have := q.isLt; omega⟩
/-- Column 512 s + u of the contracted axis. -/
abbrev kOf (s : Fin 8) (u : Fin 512) : Fin 4096 := ⟨512 * s.val + u.val, by have := s.isLt; have := u.isLt; omega⟩

theorem run_point_lt (t : Fin cfg0.N) (s : Fin 8) : 8 * (t.val / 8) + s.val < cfg0.N := by
  have hN : cfg0.N = 256 := N_0
  have := point_lt t
  have := s.isLt
  omega

/-- x's block at step s of t's run, at (p, u). -/
theorem x_entry (c : Dev nD) (t : Fin cfg0.N) (s : Fin 8) (p : Fin 1024) (u : Fin 512) :
    xblk m c ⟨8 * (t.val / 8) + s.val, run_point_lt t s⟩ (ix2 p u) = xArg m c (ix2 (rowOf t p) (kOf s u)) :=
  (xblk_at m c _ p u).trans ((congrFun (x_arr m c) _).trans (congrArg (xArg m c)
    (congrArg₂ ix2 (Fin.ext (by have := s.isLt; dsimp only; omega)) (Fin.ext (by have := s.isLt; dsimp only; omega)))))

/-- w's block at step s of t's run, at (q, u). -/
theorem w_entry (c : Dev nD) (t : Fin cfg0.N) (s : Fin 8) (q : Fin 1024) (u : Fin 512) :
    wblk m c ⟨8 * (t.val / 8) + s.val, run_point_lt t s⟩ (ix2 q u) = wArg m c (ix2 (colOf t q) (kOf s u)) :=
  (wblk_at m c _ q u).trans ((congrFun (w_arr m c) _).trans (congrArg (wArg m c)
    (congrArg₂ ix2 (Fin.ext (by have := s.isLt; dsimp only; omega)) (Fin.ext (by have := s.isLt; dsimp only; omega)))))

/-- The padded b's block at step s of t's run, at a rank r < 16. -/
theorem b_entry (c : Dev nD) (t : Fin cfg0.N) (s : Fin 8) (r : Fin 16) (u : Fin 512) :
    bblk m c ⟨8 * (t.val / 8) + s.val, run_point_lt t s⟩ (ix2 ⟨r.val, by have := r.isLt; omega⟩ u) = bArg m c (ix2 r (kOf s u)) :=
  (bblk_at m c _ _ u).trans ((congrArg (V m c main_v5 : S128x4096.Idx → EReal)
    (congrArg₂ ix2 rfl (Fin.ext (by have := s.isLt; dsimp only; omega)))).trans (b_row m c r (kOf s u)))

/-- The padded a's block at t, at a rank r < 16. -/
theorem a_entry (c : Dev nD) (t : Fin cfg0.N) (q : Fin 1024) (r : Fin 16) :
    ablk m c t (ix2 q ⟨r.val, by have := r.isLt; omega⟩) = aArg m c (ix2 (colOf t q) r) :=
  (ablk_at m c t q _).trans (a_col m c (colOf t q) r)

/-- The padded a's block at t vanishes at a rank r ≥ 16. -/
theorem a_entry_zero (c : Dev nD) (t : Fin cfg0.N) (q : Fin 1024) (r : Fin 128) (hr : 16 ≤ r.val) :
    ablk m c t (ix2 q r) = (0 : EReal) :=
  (ablk_at m c t q r).trans (a_pad m c (colOf t q) r hr)

/-- The bias block at t, at (0, q). -/
theorem bias_entry_at (c : Dev nD) (t : Fin cfg0.N) (q : Fin 1024) :
    biasblk m c t (ix2 (0 : Fin 1) q) = biasArg m c (ix1 (colOf t q)) :=
  (biasblk_at m c t q).trans (bias_at m c (colOf t q))

/-- The big accumulator's eight products are the whole row product. -/
theorem acc_sum (c : Dev nD) (t : Fin cfg0.N) (p q : Fin 1024) :
    ∑ s : Fin 8, accTerm m c (8 * (t.val / 8) + s.val) p q
      = ∑ k : Fin 4096, xArg m c (ix2 (rowOf t p) k) * wArg m c (ix2 (colOf t q) k) := by
  rw [Cert.Lora.sum_columns]
  refine Finset.sum_congr rfl fun s _ => ?_
  unfold accTerm
  rw [dif_pos (run_point_lt t s)]
  exact Finset.sum_congr rfl fun u _ => congrArg₂ (· * ·) (x_entry m c t s p u) (w_entry m c t s q u)

/-- The low-rank accumulator's eight products, at a rank r < 16, are the whole row product with b's row r. -/
theorem low_sum (c : Dev nD) (t : Fin cfg0.N) (p : Fin 1024) (r : Fin 16) :
    ∑ s : Fin 8, lowTerm m c (8 * (t.val / 8) + s.val) p ⟨r.val, by have := r.isLt; omega⟩
      = ∑ k : Fin 4096, xArg m c (ix2 (rowOf t p) k) * bArg m c (ix2 r k) := by
  rw [Cert.Lora.sum_columns]
  refine Finset.sum_congr rfl fun s _ => ?_
  unfold lowTerm
  rw [dif_pos (run_point_lt t s)]
  exact Finset.sum_congr rfl fun u _ => congrArg₂ (· * ·) (x_entry m c t s p u) (b_entry m c t s r u)

/-- THE TILE: what the point that ends a run leaves in the output's staging buffer is the specification's tile. -/
theorem tile_entry (c : Dev nD) (t : Fin cfg0.N) (h7 : t.val % 8 = 7) (p q : Fin 1024) :
    (outsAt0 m c t.val t.isLt).1 (ix2 p q)
      = Cert.Lora.entry (xArg m c) (wArg m c) (biasArg m c) (aArg m c) (bArg m c) (rowOf t p) (colOf t q) := by
  have h0 : ¬t.val % 8 = 0 := by omega
  have e1 : (outsAt0 m c t.val t.isLt).1
      = k0_pay6 (ablk m c t) ((outsAt0 m c t.val t.isLt).2.2) ((outsAt0 m c t.val t.isLt).2.1) (biasblk m c t) := by
    rw [outsAt0_C m c t h0 h7]
    dsimp only
    rw [out_last, acc_last, low_last]
  have hrank : ∑ r : Fin 128, (outsAt0 m c t.val t.isLt).2.2 (ix2 p r) * ablk m c t (ix2 q r)
      = ∑ r : Fin 16, (∑ k : Fin 4096, xArg m c (ix2 (rowOf t p) k) * bArg m c (ix2 r k)) * aArg m c (ix2 (colOf t q) r) := by
    rw [Cert.Lora.sum_rank (fun r : Fin 128 => (outsAt0 m c t.val t.isLt).2.2 (ix2 p r) * ablk m c t (ix2 q r))
      (fun r hr => by
        show (outsAt0 m c t.val t.isLt).2.2 (ix2 p r) * ablk m c t (ix2 q r) = 0
        rw [a_entry_zero m c t q r hr]; exact mul_zero _)]
    refine Finset.sum_congr rfl fun r _ => ?_
    show (outsAt0 m c t.val t.isLt).2.2 (ix2 p ⟨r.val, _⟩) * ablk m c t (ix2 q ⟨r.val, _⟩) = _
    rw [a_entry m c t q r, low_done m c t h7, low_sum]
  rw [e1, out_entry, acc_done m c t h7, acc_sum, bias_entry_at, hrank]
  rfl

end Cert.KernelIdeal.Fold

end
-- ==== Proof.KernelValue.lean ====
/-
  The kernel's result array after the run is the specified function of the arguments.

  The result is written back tile by tile, once per run of eight points, at the run's last point; tile (I, J) is
  rows 1024 I .. and columns 1024 J .. of the result, written by point 32 I + 8 J + 7. Each written tile is the
  specification's tile, and the 8 x 4 tiles cover the [8192, 4096] array: entry (R, C) lies in tile
  (R / 1024, C / 1024). So the array ends holding the specification everywhere.
-/
import proofs.«101534_j40355512713642_1_alg».proof.Proof.RunTerms

set_option maxRecDepth 16384

noncomputable section

namespace Cert.KernelIdeal.Fold

open Cert.KernelIdeal Cert.KernelIdeal.Gen Cert.KernelIdeal.Value Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specified result of the launch's arguments on core c. -/
abbrev spec (c : Dev nD) : S8192x4096.Idx → EReal :=
  Cert.Lora.result (xArg m c) (wArg m c) (biasArg m c) (aArg m c) (bArg m c)

/-- What the last point of a run writes back is its tile of the specification. -/
theorem flushed_eq (c : Dev nD) (t : Fin cfg0.N) (hf : (cfg0.win 5).flush t = true) :
    (dats m 0 c).flushed 5 t = ((cfg0.win 5).blk t).view.read (Elt Ideal) (spec m c) := by
  have h7 : t.val % 8 = 7 := (flush0_5 t).mp hf
  obtain ⟨-, -, -, -, -, -, -, -, -, -, e0, e1⟩ := index_facts t
  rw [flushed5 m c t]
  funext j
  obtain ⟨p, q, rfl⟩ : ∃ (p q : Fin 1024), j = ix2 p q := ⟨j 0, j 1, eq_ix2 j⟩
  show (outsAt0 m c t.val t.isLt).1 (ix2 p q) = spec m c (((cfg0.win 5).blk t).view.emb (ix2 p q))
  rw [tile_entry m c t h7 p q]
  have hemb : ((cfg0.win 5).blk t).view.emb (ix2 p q) = ix2 (rowOf t p) (colOf t q) := by
    funext a
    apply Fin.ext
    match a with
    | ⟨0, _⟩ => show win0_5.index t (0 : Fin 2) * 1024 + 1 * p.val = 1024 * (t.val / 32) + p.val; rw [e0]; omega
    | ⟨1, _⟩ => show win0_5.index t (1 : Fin 2) * 1024 + 1 * q.val = 1024 * (t.val / 8 % 4) + q.val; rw [e1]; omega
  rw [hemb]
  rfl

/-- An entry of the result is in point t's tile iff each coordinate is in the tile's range. -/
theorem mem_tile (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v7).slice (win0_5.rect t)).set ↔ _
  rw [View.set_slice_whole, Rect.mem_set_unit]
  exact Iff.rfl

/-- Every entry of the result lies in the tile of some point that writes back. -/
theorem tiles_cover (i : S8192x4096.Idx) :
    ∃ t : Fin cfg0.N, (cfg0.win 5).flush t = true ∧ i ∈ ((cfg0.win 5).blk t).view.set := by
  have hR : (i 0).val < 8192 := (i 0).isLt
  have hC : (i 1).val < 4096 := (i 1).isLt
  have hN : cfg0.N = 256 := N_0
  let t : Fin cfg0.N := ⟨32 * ((i 0).val / 1024) + 8 * ((i 1).val / 1024) + 7, by omega⟩
  have ht : t.val = 32 * ((i 0).val / 1024) + 8 * ((i 1).val / 1024) + 7 := rfl
  obtain ⟨-, -, -, -, -, -, -, -, -, -, e0, e1⟩ := index_facts t
  refine ⟨t, (flush0_5 t).mpr (by omega), ?_⟩
  rw [mem_tile]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- The result array after the run. -/
theorem final (c : Dev nD) : (dats m 0 c).arrAt 5 cfg0.N = spec m c :=
  (dats m 0 c).arrAt_eq_of_cover 5 (spec m c) (flushed_eq m c) tiles_cover

/-- The kernel's run: it ends, with the result array at the specification and the arguments unchanged. -/
theorem run : θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Fold

end
-- ==== Proof.RefSide.lean ====
/-
  The reference program computes the specified function.

  Its ten host operations are three matrix products contracting the second axis of both operands, a scaling by the
  constant 3, two additions and the broadcast of the bias vector along the rows. Read at one entry (t, o) they give
      ( sum_k x(t, k) * w(o, k)  +  3 * sum_{r < 16} ( sum_k x(t, k) * b(r, k) ) * a(o, r) )  +  bias(o),
  which is the specification term for term: only the index functions have to be identified.
-/
import proofs.«101534_j40355512713642_1_alg».proof.Proof.Gen.ReferenceIdeal.Read
import proofs.«101534_j40355512713642_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

theorem left0 (t : Fin 8192) (o : Fin 4096) (k : Fin 4096) : lidx_main_v0 (ix2 t o) k = ix2 t k :=
  funext fun a => Fin.ext (by match a with | ⟨0, _⟩ => rfl | ⟨1, _⟩ => rfl)
theorem right0 (t : Fin 8192) (o : Fin 4096) (k : Fin 4096) : ridx_main_v0 (ix2 t o) k = ix2 o k :=
  funext fun a => Fin.ext (by match a with | ⟨0, _⟩ => rfl | ⟨1, _⟩ => rfl)
theorem left1 (t : Fin 8192) (r : Fin 16) (k : Fin 4096) : lidx_main_v1 (ix2 t r) k = ix2 t k :=
  funext fun a => Fin.ext (by match a with | ⟨0, _⟩ => rfl | ⟨1, _⟩ => rfl)
theorem right1 (t : Fin 8192) (r : Fin 16) (k : Fin 4096) : ridx_main_v1 (ix2 t r) k = ix2 r k :=
  funext fun a => Fin.ext (by match a with | ⟨0, _⟩ => rfl | ⟨1, _⟩ => rfl)
theorem left2 (t : Fin 8192) (o : Fin 4096) (r : Fin 16) : lidx_main_v2 (ix2 t o) r = ix2 t r :=
  funext fun a => Fin.ext (by match a with | ⟨0, _⟩ => rfl | ⟨1, _⟩ => rfl)
theorem right2 (t : Fin 8192) (o : Fin 4096) (r : Fin 16) : ridx_main_v2 (ix2 t o) r = ix2 o r :=
  funext fun a => Fin.ext (by match a with | ⟨0, _⟩ => rfl | ⟨1, _⟩ => rfl)
theorem bias_idx (t : Fin 8192) (o : Fin 4096) : idx_main_v6 (idx_main_v7 (ix2 t o)) = ix1 o :=
  funext fun a => Fin.ext (by match a with | ⟨0, _⟩ => rfl)

/-- The reference's last stage is the specified function of the five arguments. -/
theorem stage_eq (x : (⟨S8192x4096, .f32⟩ : BufTy).Contents (Elt Ideal)) (w : (⟨S4096x4096, .f32⟩ : BufTy).Contents (Elt Ideal))
    (bias : (⟨S4096, .f32⟩ : BufTy).Contents (Elt Ideal)) (a : (⟨S4096x16, .f32⟩ : BufTy).Contents (Elt Ideal))
    (b : (⟨S16x4096, .f32⟩ : BufTy).Contents (Elt Ideal)) :
    val_main_v8 (F := Ideal) x w bias a b = Cert.Lora.result x w bias a b := by
  funext i
  obtain ⟨t, o, rfl⟩ : ∃ t o, i = ix2 t o := ⟨i 0, i 1, eq_ix2 i⟩
  rw [Cert.Lora.result_ix2]
  unfold Cert.Lora.entry
  rw [val_main_v8_apply, val_main_v5_apply, val_main_v0_apply, val_main_v4_apply, val_main_v3_apply, val_main_cst_apply,
    val_main_v2_apply, val_main_v7_apply, val_main_v6_apply]
  simp only [val_main_v1_apply, left0, right0, left1, right1, left2, right2, bias_idx, Ideal.addf_def, Ideal.mulf_def,
    Ideal.ofBits_def]

end Cert.ReferenceIdeal.RefValue

end
-- ==== Proof.lean ====
/-
  A low-rank-adapted linear layer, fused into one tiled kernel, against its plain reference.

  Both programs compute, for x : [8192, 4096], a weight w : [4096, 4096], a bias : [4096] and the low-rank factors
  a : [4096, 16] and b : [16, 4096],

      out(t, o) = ( sum_k x(t, k) w(o, k)  +  3 sum_{r < 16} ( sum_k x(t, k) b(r, k) ) a(o, r) )  +  bias(o).

  The reference does it with three whole matrix products. The kernel tiles the result into 8 x 4 tiles of
  1024 x 1024 and, per tile, walks the 4096 contracted columns in 8 steps of 512, carrying two accumulators
  (the tile's partial product with w, and the partial product of its rows with b padded to rank 128); at the last
  step it multiplies the low-rank accumulator with the padded a, scales by 3, adds the bias row and writes the tile.

  Over the extended reals the two are the same function: a sum of 4096 terms is the sum of its 8 runs of 512
  (addition is associative and commutative), and the 112 padded ranks contribute products with zero. No
  distributive law is used, so the inputs' finiteness is never needed. Changes of float format are the identity at
  this instance, and the idealization rewrote nothing, so "preserves" is trivial. The three frames are the generated
  ones (for the reference: its generated run with the result dropped).

  Modules: Spec (the function and the two sum lemmas), Tiles (what one grid point leaves in each buffer),
  TileAt (those values at one entry), Blocks (the blocks a point reads), HostSide (the operands the kernel is
  launched on), Fold (the accumulators as sums over a run), RunTerms (one tile is the specification's tile),
  KernelValue (the whole result array and the kernel's run), RefSide (the reference is the specification).
-/
import proofs.«101534_j40355512713642_1_alg».proof.Defs
import proofs.«101534_j40355512713642_1_alg».proof.Proof.Gen.Kernel
import proofs.«101534_j40355512713642_1_alg».proof.Proof.Gen.Kernel.Skeleton
import proofs.«101534_j40355512713642_1_alg».proof.Proof.Gen.Kernel.Launch
import proofs.«101534_j40355512713642_1_alg».proof.Proof.Gen.Kernel.Points
import proofs.«101534_j40355512713642_1_alg».proof.Proof.Gen.Kernel.Frame
import proofs.«101534_j40355512713642_1_alg».proof.Proof.Gen.KernelIdeal
import proofs.«101534_j40355512713642_1_alg».proof.Proof.Gen.KernelIdeal.Skeleton
import proofs.«101534_j40355512713642_1_alg».proof.Proof.Gen.KernelIdeal.Launch
import proofs.«101534_j40355512713642_1_alg».proof.Proof.Gen.KernelIdeal.Points
import proofs.«101534_j40355512713642_1_alg».proof.Proof.Gen.KernelIdeal.Frame
import proofs.«101534_j40355512713642_1_alg».proof.Proof.Gen.ReferenceIdeal
import proofs.«101534_j40355512713642_1_alg».proof.Proof.Gen.Pre_finite_inputs
import proofs.«101534_j40355512713642_1_alg».proof.Proof.Gen.KernelIdeal.Value
import proofs.«101534_j40355512713642_1_alg».proof.Proof.Gen.ReferenceIdeal.Run
import proofs.«101534_j40355512713642_1_alg».proof.Proof.Gen.ReferenceIdeal.Read
import proofs.«101534_j40355512713642_1_alg».proof.Proof.KernelValue
import proofs.«101534_j40355512713642_1_alg».proof.Proof.RefSide
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the same function of arguments that agree. -/
theorem algebraic : Cert.algebraic_KernelIdeal_ReferenceIdeal := by
  intro m ρ m' ρ' _ hagree
  refine ⟨fun c => Cert.KernelIdeal.Fold.spec m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.stage_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
